-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x32x512x512 : Shape := ⟨5, ![4, 8, 32, 512, 512]⟩
abbrev S_ : Shape := ⟨0, ![]⟩

class Facts : Prop where
  bcast_S_S4x8x32x512x512 : S_.BroadcastsInDim S4x8x32x512x512 (![] : Fin 0 → Fin S4x8x32x512x512.rank)
  reducesTo_S4x8x32x512x512_S_d0_1_2_3_4 : S4x8x32x512x512.ReducesTo [0, 1, 2, 3, 4] S_
  h_S_ : 0 < S_.numel

variable [Facts]

def fn {F : FTy → Type} [FloatOps F] (main_arg0 : FVec F S4x8x32x512x512 .f32) : IVec S_ 1 :=
  let main_v0 : FVec F S4x8x32x512x512 .f32 := Host.absf main_arg0
  let main_cst : FVec F S_ .f32 := constant S_ .f32 0x7F800000#32
  let main_v1 : FVec F S4x8x32x512x512 .f32 := broadcastInDim S4x8x32x512x512 ![] bcast_S_S4x8x32x512x512 main_cst
  let main_v2 : IVec S4x8x32x512x512 1 := cmpf .olt main_v0 main_v1
  let main_c : IVec S_ 1 := constantI S_ 1 1#1
  let main_v3 : IVec S_ 1 := (fun x v => Host.reduce IntOp.andi x v reducesTo_S4x8x32x512x512_S_d0_1_2_3_4 h_S_) main_v2 main_c
  main_v3
-- ==== Kernel.lean ====
abbrev S4x8x32x512x512 : Shape := ⟨5, ![4, 8, 32, 512, 512]⟩
abbrev S4x1x512x512 : Shape := ⟨4, ![4, 1, 512, 512]⟩
abbrev S1x1x32x128x512 : Shape := ⟨5, ![1, 1, 32, 128, 512]⟩
abbrev S1x1x128x512 : Shape := ⟨4, ![1, 1, 128, 512]⟩
abbrev S32x128x512 : Shape := ⟨3, ![32, 128, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x8x32x512x512, .f32⟩
  | .hbm, ⟨1, _⟩ => ⟨S4x1x512x512, .f32⟩
  | .local _ .vmem, ⟨0, _⟩ => ⟨S1x1x32x128x512, .f32⟩
  | .local _ .vmem, ⟨1, _⟩ => ⟨S1x1x32x128x512, .f32⟩
  | .local _ .vmem, ⟨2, _⟩ => ⟨S1x1x128x512, .f32⟩
  | .local _ .vmem, ⟨3, _⟩ => ⟨S1x1x128x512, .f32⟩
  | _, _ => ⟨S4x8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  let c0_i32_1 : BitVec 32 := 0#32
  ![arg0.toNat, c7_i32.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x32x128x512_S1x1x32x128x512_0_0_0_0_0 : ∀ a, (![0, 0, 0, 0, 0] : Fin 5 → Nat) a + S1x1x32x128x512.size a ≤ S1x1x32x128x512.size a
  h_S1x1x32x128x512 : 0 < S1x1x32x128x512.numel
  shapeCasts_S1x1x32x128x512_S32x128x512 : S1x1x32x128x512.ShapeCasts S32x128x512
  reduces_S32x128x512_S128x512 : S32x128x512.Reduces [0] S128x512
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  shapeCasts_S128x512_S1x1x128x512 : S128x512.ShapeCasts S1x1x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x128x512.size a ≤ S4x8x32x512x512.size a
  hwx0_0 : ∀ i : grid0.Coords, EltTy.bits .f32 = 32 ∨ (Rect.block (s := S4x8x32x512x512) S1x1x32x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x512.size a ≤ S4x1x512x512.size a
  hwx0_1 : ∀ i : grid0.Coords, EltTy.bits .f32 = 32 ∨ (Rect.block (s := S4x1x512x512) S1x1x128x512.size (cc0_transform_1 i) (hinb0_1 i)).WholeWords (EltTy.packing .f32)

variable [Facts₀]

abbrev win0_0 : Pipeline.Window sig grid0 :=
  Pipeline.Window.ofSpec (Memref.whole main_arg0) S1x1x32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x32x512x512 : Shape := ⟨5, ![4, 8, 32, 512, 512]⟩
abbrev S4x1x32x512x512 : Shape := ⟨5, ![4, 1, 32, 512, 512]⟩
abbrev S4x32x512x512 : Shape := ⟨4, ![4, 32, 512, 512]⟩
abbrev S_ : Shape := ⟨0, ![]⟩
abbrev S4x512x512 : Shape := ⟨3, ![4, 512, 512]⟩
abbrev S4x1x512x512 : Shape := ⟨4, ![4, 1, 512, 512]⟩

abbrev nBuf : Space → Nat
  | .hbm => 6
  | .vmem => 0
  | .smem => 0
  | _ => 0

abbrev bufTy : (tb : Table) → Fin (tcTables nBuf tb) → BufTy
  | .hbm, ⟨0, _⟩ => ⟨S4x8x32x512x512, .f32⟩
  | .hbm, ⟨1, _⟩ => ⟨S4x1x32x512x512, .f32⟩
  | .hbm, ⟨2, _⟩ => ⟨S4x32x512x512, .f32⟩
  | .hbm, ⟨3, _⟩ => ⟨S_, .f32⟩
  | .hbm, ⟨4, _⟩ => ⟨S4x512x512, .f32⟩
  | .hbm, ⟨5, _⟩ => ⟨S4x1x512x512, .f32⟩
  | _, _ => ⟨S4x8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  slices_S4x8x32x512x512_S4x1x32x512x512_0_7_0_0_0 : S4x8x32x512x512.Slices ![0, 7, 0, 0, 0] S4x1x32x512x512
  shapeCasts_S4x1x32x512x512_S4x32x512x512 : S4x1x32x512x512.ShapeCasts S4x32x512x512
  reducesTo_S4x32x512x512_S4x512x512_d1 : S4x32x512x512.ReducesTo [1] S4x512x512
  h_S_ : 0 < S_.numel
  bcast_S4x512x512_S4x1x512x512_0_2_3 : S4x512x512.BroadcastsInDim S4x1x512x512 (![0, 2, 3] : Fin 3 → Fin S4x1x512x512.rank)

variable [Facts₀]

class Facts : Prop extends Facts₀ where

variable [Facts]
-- ==== Proof.ChannelMin.lean ====
/-
  The mathematics both programs compute, stated once and free of either program's text.

  The input is an array x of shape [4, 8, 32, 512, 512] (batch, time, channel, row, column) of extended reals.
  The result has shape [4, 1, 512, 512]: at (b, 0, h, w) it is the minimum over the 32 channels c of
  x[b, 7, c, h, w] — the last time step — taken from +∞ (the f32 word 0x7F800000, which both programs
  start their reduction from). The minimum is written as a `Finset.fold` of `min` over the channel
  coordinate, so no order of the 32 comparisons is fixed: `min` on the extended reals commutes and
  associates, and that is the only law the two programs' agreement rests on (no finiteness is used).
-/
import Idealize.ShloMosaic.PureOps.Ideal
import Idealize.ShloMosaic.PureOps.Ideal.Laws
import Idealize.ShloMosaic.Lib.ValueIdx

noncomputable section

namespace Cert.ChannelMin

open Idealize.ShloMosaic Idealize.ShloMosaic.ValueIdx

/-- The input's shape: batch 4, time 8, channel 32, rows 512, columns 512. -/
abbrev SIn : Shape := ⟨5, ![4, 8, 32, 512, 512]⟩
/-- The result's shape: batch 4, one kept channel, rows 512, columns 512. -/
abbrev SOut : Shape := ⟨4, ![4, 1, 512, 512]⟩

/-- The value the reductions start from: +∞ as the f32 word both programs print. -/
abbrev top : EReal := FloatOps.ofBits (F := Ideal) .f32 0x7F800000#32

/-- The last time step. -/
abbrev lastT : Fin 8 := 7

/-- The minimum over the channels of the last time step, at batch `b`, row `h`, column `w`. -/
def chanMinAt (x : SIn.Idx → EReal) (b : Fin 4) (h w : Fin 512) : EReal :=
  (Finset.univ : Finset (Fin 32)).fold min top (fun c => x (ix5 b lastT c h w))

/-- The whole result: entry (b, 0, h, w) is the channel minimum at (b, h, w). -/
def chanMin (x : SIn.Idx → EReal) : SOut.Idx → EReal :=
  fun i => chanMinAt x (i 0) (i 2) (i 3)

theorem chanMin_apply (x : SIn.Idx → EReal) (b : Fin 4) (z : Fin 1) (h w : Fin 512) :
    chanMin x (ix4 b z h w) = chanMinAt x b h w := rfl

end Cert.ChannelMin

end
-- ==== Proof.MinOverAxis.lean ====
/-
  The two reductions that occur in the programs, each read at a result index as the minimum over the
  channel coordinate — a `Finset.fold` of `min` over `Fin 32`, free of the order either reduction folds in.

  * On the vector unit: a [32, 128, 512] value reduced over its axis 0. At (r, w) the result is the minimum,
    from the accumulator's value, of the entries (c, r, w) over the 32 values of c.
  * On the host: a [4, 32, 512, 512] array reduced over its axis 1 from a scalar initial value. At (b, r, w)
    the result is the minimum, from that value, of the entries (b, c, r, w) over the 32 values of c.

  Both rest on `min` being commutative and associative on the extended reals; the index that a result index
  and a channel coordinate name together is computed coordinate by coordinate.
-/
import Idealize.ShloMosaic.PureOps.Ideal
import Idealize.ShloMosaic.PureOps.Ideal.Laws
import Idealize.ShloMosaic.PureOps.Reduce
import Idealize.ShloMosaic.Lib.ValueIdx

noncomputable section

namespace Cert.ChannelMin

open Idealize.ShloMosaic Idealize.ShloMosaic.ValueIdx

/-- A block's channels, rows and columns. -/
abbrev SBlk3 : Shape := ⟨3, ![32, 128, 512]⟩
/-- A block's rows and columns. -/
abbrev SBlk2 : Shape := ⟨2, ![128, 512]⟩
/-- The last time step of the whole input, the time axis dropped. -/
abbrev SStep : Shape := ⟨4, ![4, 32, 512, 512]⟩
/-- The host reduction's result, before the unit axis is put back. -/
abbrev SRed : Shape := ⟨3, ![4, 512, 512]⟩

/-- The vector unit's minimum over axis 0 of a [32, 128, 512] value, at (r, w): the minimum over the
    channels c of the entries (c, r, w), from the accumulator's value. -/
theorem vectorMin_apply (v : FVec Ideal SBlk3 .f32) (acc : BitVec 32) (h : SBlk3.Reduces [0] SBlk2)
    (hφ : FKind.Formats .f32) (hacc : acc = FKind.minimumf.neutral .f32 hφ) (r : Fin 128) (w : Fin 512) :
    multiReduction .minimumf [0] SBlk2 v acc h hφ hacc (ix2 r w)
      = (Finset.univ : Finset (Fin 32)).fold min (FloatOps.ofBits (F := Ideal) .f32 acc) (fun c => v (ix3 c r w)) := by
  rw [multiReduction_minimumf_eq_fold, h.fold_filter_drop_single]
  have e : (v ∘ h.lift (ix2 r w)) = fun c : Fin 32 => v (ix3 c r w) := by
    funext c
    refine congrArg v ?_
    funext a; apply Fin.ext
    match a with
    | ⟨0, _⟩ => rfl
    | ⟨1, _⟩ => rfl
    | ⟨2, _⟩ => rfl
  rw [e]
  rfl

/-- The host's minimum over axis 1 of a [4, 32, 512, 512] array from a scalar initial value, at (b, r, w):
    the minimum over the channels c of the entries (b, c, r, w), from that value. -/
theorem hostMin_apply (x : SStep.Idx → EReal) (init : (⟨0, ![]⟩ : Shape).Idx → EReal)
    (h' : SStep.ReducesTo [1] SRed) (hu : 0 < (⟨0, ![]⟩ : Shape).numel) (b : Fin 4) (r w : Fin 512) :
    Host.reduce (FloatOps.minimumf (F := Ideal) (φ := .f32)) x init h' hu (ix3 b r w)
      = (Finset.univ : Finset (Fin 32)).fold min (init ix0) (fun c => x (ix4 b c r w)) := by
  have h : SStep.Reduces [1] SRed := by decide
  rw [Host.reduce_eq_fold_single (FloatOps.minimumf (F := Ideal) (φ := .f32)) x init h' h hu (ix3 b r w)]
  have e : (x ∘ h.lift (ix3 b r w)) = fun c : Fin 32 => x (ix4 b c r w) := by
    funext c
    refine congrArg x ?_
    funext a; apply Fin.ext
    match a with
    | ⟨0, _⟩ => rfl
    | ⟨1, _⟩ => rfl
    | ⟨2, _⟩ => rfl
    | ⟨3, _⟩ => rfl
  rw [e, show Shape.Idx.first hu = ix0 from funext fun a => a.elim0]
  rfl

end Cert.ChannelMin

end
-- ==== Proof.RefMin.lean ====
/-
  The reference program's result is the channel minimum at the last time step.

  Read one operation at a time: the slice keeps time step 7, the reshape drops the time axis (of extent one), so
  the reduction's operand at (b, c, r, w) is the input at (b, 7, c, r, w); the reduction over axis 1 from +∞ is at
  (b, r, w) the minimum over the 32 channels; the final broadcast puts a unit axis back, so the result at
  (b, 0, r, w) is that minimum.
-/
import proofs.«142336_j32667521253559_1_alg».proof.Proof.Gen.ReferenceIdeal.Read
import proofs.«142336_j32667521253559_1_alg».proof.Proof.ChannelMin
import proofs.«142336_j32667521253559_1_alg».proof.Proof.MinOverAxis
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.ChannelMin

/-- The reduction's operand — the last time step with the time axis dropped — at (b, c, r, w) is the input at
    (b, 7, c, r, w): the reshape's flat index splits back into the same coordinates, the slice adds the offset 7. -/
theorem lastStep_apply (x : SIn.Idx → EReal) (b : Fin 4) (c : Fin 32) (r w : Fin 512) :
    val_main_v1 (F := Ideal) x (ix4 b c r w) = x (ix5 b lastT c r w) := by
  rw [val_main_v1_apply, val_main_v0_apply]
  refine congrArg x ?_
  have hb : b.val < 4 := b.isLt
  have hc : c.val < 32 := c.isLt
  have hr : r.val < 512 := r.isLt
  have hw : w.val < 512 := w.isLt
  funext a; apply Fin.ext
  match a with
  | ⟨0, _⟩ => show (((b.val * 32 + c.val) * 512 + r.val) * 512 + w.val) / 8388608 = b.val; omega
  | ⟨1, _⟩ => show 7 + 0 = 7; rfl
  | ⟨2, _⟩ => show (((b.val * 32 + c.val) * 512 + r.val) * 512 + w.val) / 262144 % 32 = c.val; omega
  | ⟨3, _⟩ => show (((b.val * 32 + c.val) * 512 + r.val) * 512 + w.val) / 512 % 512 = r.val; omega
  | ⟨4, _⟩ => show (((b.val * 32 + c.val) * 512 + r.val) * 512 + w.val) % 512 = w.val; omega

/-- The reference's result array is the channel minimum of its argument. -/
theorem result_eq (x : SIn.Idx → EReal) : val_main_v3 (F := Ideal) x = chanMin x := by
  funext i
  obtain ⟨b, z, r, w, rfl⟩ : ∃ (b : Fin 4) (z : Fin 1) (r w : Fin 512), i = ix4 b z r w :=
    ⟨i 0, i 1, i 2, i 3, eq_ix4 i⟩
  rw [val_main_v3_apply, chanMin_apply]
  have e : idx_main_v3 (ix4 b z r w) = ix3 b r w := by
    funext a; apply Fin.ext
    match a with
    | ⟨0, _⟩ => rfl
    | ⟨1, _⟩ => rfl
    | ⟨2, _⟩ => rfl
  rw [e]
  unfold val_main_v2
  refine (hostMin_apply _ _ _ _ b r w).trans ?_
  exact congrArg (fun f => (Finset.univ : Finset (Fin 32)).fold min top f)
    (funext fun c => lastStep_apply x b c r w)

end Cert.ReferenceIdeal.RefValue

end
-- ==== Proof.KernelMin.lean ====
/-
  The kernel's result array is the channel minimum at the last time step.

  The grid has 4 × 4 points (b, h). At a point the input window's block is the [1, 1, 32, 128, 512] box of the input
  at batch b, time step 7, all 32 channels, rows 128·h … 128·h + 127, all columns; the output window's block is the
  [1, 1, 128, 512] box of the result at batch b, rows 128·h … 128·h + 127. The body reduces the input block over its
  channel axis from +∞ and stores the [128, 512] result as the output block. So what a point writes back is its
  block of the channel minimum; the 16 output blocks tile the result, hence the result IS the channel minimum.
-/
import proofs.«142336_j32667521253559_1_alg».proof.Proof.Gen.KernelIdeal.Frame
import proofs.«142336_j32667521253559_1_alg».proof.Proof.ChannelMin
import proofs.«142336_j32667521253559_1_alg».proof.Proof.MinOverAxis
import Idealize.ShloMosaic.Lib.Pipeline.Value
import Idealize.ShloMosaic.Lib.ValueIdx

set_option maxRecDepth 16384

noncomputable section

namespace Cert.KernelIdeal.BlockValue

open Cert.KernelIdeal Cert.KernelIdeal.Gen
open Idealize.ShloMosaic Idealize.ShloMosaic.TcCoe Idealize.SL.Sem Idealize.ShloMosaic.ValueIdx Cert.ChannelMin
open Idealize.ShloMosaic.Pipeline (Dat)

/-! ## The body: one block in, one block out -/

theorem offsets5 : (![0, 0, 0, 0, 0] : Fin 5 → Nat) = fun _ => 0 := funext fun a => by fin_cases a <;> rfl
theorem offsets4 : (![0, 0, 0, 0] : Fin 4 → Nat) = fun _ => 0 := funext fun a => by fin_cases a <;> rfl

/-- The stored value as the tree of vector operations: the block's two unit axes cast away, the minimum over the
    channel axis from +∞, the two unit axes cast back. -/
theorem stored_eq (X : Vec Ideal S1x1x32x128x512 .f32) :
    k0_pay1 (F := Ideal) X = shapeCast S1x1x128x512 (multiReduction .minimumf [0] S128x512
      (shapeCast S32x128x512 X shapeCasts_S1x1x32x128x512_S32x128x512) 0x7F800000#32 reduces_S32x128x512_S128x512 (.inl rfl) rfl)
      shapeCasts_S128x512_S1x1x128x512 := rfl

/-- What the body leaves in the output block, at row r and column w of the block: the minimum over the channels c
    of the input block at (c, r, w), from +∞. The two casts only drop and restore the block's unit axes. -/
theorem body_apply (X : Vec Ideal S1x1x32x128x512 .f32) (z0 z1 : Fin 1) (r : Fin 128) (w : Fin 512) :
    out0_1 (F := Ideal) X (ix4 z0 z1 r w)
      = (Finset.univ : Finset (Fin 32)).fold min top (fun c => X (ix5 (0 : Fin 1) (0 : Fin 1) c r w)) := by
  have hz0 : z0.val < 1 := z0.isLt
  have hz1 : z1.val < 1 := z1.isLt
  unfold out0_1
  rw [View.canon_unit_zero (S := S1x1x128x512) offsets4, View.ld_unit_zero (S := S1x1x32x128x512) offsets5, stored_eq]
  refine (shapeCast_apply _ shapeCasts_S128x512_S1x1x128x512 (ix4 z0 z1 r w) (ix2 r w)
    (by rw [Shape.rowMajor_val_two, Shape.rowMajor_val_four]
        show r.val * 512 + w.val = ((z0.val * 1 + z1.val) * 128 + r.val) * 512 + w.val
        omega)).trans ?_
  refine (vectorMin_apply _ _ _ _ _ r w).trans ?_
  refine congrArg (fun f => (Finset.univ : Finset (Fin 32)).fold min top f) (funext fun c => ?_)
  have hc : c.val < 32 := c.isLt
  have hr : r.val < 128 := r.isLt
  have hw : w.val < 512 := w.isLt
  exact shapeCast_apply X shapeCasts_S1x1x32x128x512_S32x128x512 (ix3 c r w) (ix5 (0 : Fin 1) (0 : Fin 1) c r w)
    (by rw [Shape.rowMajor_val_five, Shape.rowMajor_val_three]
        show ((((0 * 1 + 0) * 32 + c.val) * 128 + r.val) * 512 + w.val) = (c.val * 128 + r.val) * 512 + w.val
        omega)

/-! ## The index maps, decided over the 16 grid points -/

/-- The input block sits at the output block's batch and row tile, at time step 7, at channel block 0 and column
    block 0; the output block's kept-channel and column block indices are 0. -/
theorem idx_facts : ∀ t : Fin cfg0.N,
    win0_0.index t (0 : Fin 5) = win0_1.index t (0 : Fin 4)
    ∧ win0_0.index t (1 : Fin 5) = 7
    ∧ win0_0.index t (2 : Fin 5) = 0
    ∧ win0_0.index t (3 : Fin 5) = win0_1.index t (2 : Fin 4)
    ∧ win0_0.index t (4 : Fin 5) = 0
    ∧ win0_1.index t (1 : Fin 4) = 0
    ∧ win0_1.index t (3 : Fin 4) = 0 :=
  (by decide +kernel : ∀ t : Fin grid0.N, _)

/-- Every (batch, row tile) pair is some grid point's output block. -/
theorem idx_onto : ∀ (q0 : Fin 4) (q2 : Fin 4), ∃ t : Fin cfg0.N, win0_1.index t = ![q0.val, 0, q2.val, 0] :=
  (by decide +kernel : ∀ (q0 : Fin 4) (q2 : Fin 4), ∃ t : Fin grid0.N, win0_1.index t = ![q0.val, 0, q2.val, 0])

variable (m : (ℓ : Loc nD τ sig) → Buf (Elt Ideal) ℓ) (ρ : Dev nD → PrngReg)

/-! ## From blocks to the array -/

/-- The input array as the region finds it, at its literal type. -/
abbrev xarr (c : Dev nD) : SIn.Idx → EReal := V m c main_arg0

/-- The input window's block at a point, at its literal type. -/
abbrev xblk (c : Dev nD) (t : Fin cfg0.N) : Vec Ideal S1x1x32x128x512 .f32 := iblk m c 0 t

/-- The input block at (0, 0, c, r, w) is the input array at (batch of the point, 7, c, row of the point's tile, w) —
    the same entry the channel minimum reads for the output block's entry (·, ·, r, w). -/
theorem xblk_apply (c : Dev nD) (t : Fin cfg0.N) (z0 z1 : Fin 1) (k : Fin 32) (r : Fin 128) (w : Fin 512) :
    xblk m c t (ix5 (0 : Fin 1) (0 : Fin 1) k r w)
      = xarr m c (ix5 ((((cfg0.win 1).blk t).view.emb (ix4 z0 z1 r w)) 0) lastT k
          ((((cfg0.win 1).blk t).view.emb (ix4 z0 z1 r w)) 2) ((((cfg0.win 1).blk t).view.emb (ix4 z0 z1 r w)) 3)) := by
  show V m c main_arg0 (((cfg0.win 0).blk t).view.emb (ix5 (0 : Fin 1) (0 : Fin 1) k r w)) = _
  refine congrArg (V m c main_arg0) ?_
  obtain ⟨e0, e1, e2, e3, e4, e5, e6⟩ := idx_facts t
  have hz0 : z0.val < 1 := z0.isLt
  have hk : k.val < 32 := k.isLt
  have hr : r.val < 128 := r.isLt
  have hw : w.val < 512 := w.isLt
  funext a; apply Fin.ext
  match a with
  | ⟨0, _⟩ => show win0_0.index t (0 : Fin 5) * 1 + 1 * 0 = win0_1.index t (0 : Fin 4) * 1 + 1 * z0.val; omega
  | ⟨1, _⟩ => show win0_0.index t (1 : Fin 5) * 1 + 1 * 0 = 7; omega
  | ⟨2, _⟩ => show win0_0.index t (2 : Fin 5) * 32 + 1 * k.val = k.val; omega
  | ⟨3, _⟩ => show win0_0.index t (3 : Fin 5) * 128 + 1 * r.val = win0_1.index t (2 : Fin 4) * 128 + 1 * r.val; omega
  | ⟨4, _⟩ => show win0_0.index t (4 : Fin 5) * 512 + 1 * w.val = win0_1.index t (3 : Fin 4) * 512 + 1 * w.val; omega

/-- What a grid point writes back is its block of the channel minimum of the input array. -/
theorem flushed_eq (c : Dev nD) (t : Fin cfg0.N) :
    (dats m 0 c).flushed 1 t = ((cfg0.win 1).blk t).view.read (Elt Ideal) (chanMin (xarr m c)) := by
  show (cfg0.win 1).cut (grid0.coords t) ((dats m 0 c).after 1 t) = _
  rw [after0_1]
  funext (y : S1x1x128x512.Idx)
  obtain ⟨z0, z1, r, w, rfl⟩ : ∃ (z0 z1 : Fin 1) (r : Fin 128) (w : Fin 512), y = ix4 z0 z1 r w :=
    ⟨y 0, y 1, y 2, y 3, eq_ix4 y⟩
  show out0_1 (F := Ideal) (xblk m c t) (ix4 z0 z1 r w)
    = chanMin (xarr m c) (((cfg0.win 1).blk t).view.emb (ix4 z0 z1 r w))
  refine (body_apply (xblk m c t) z0 z1 r w).trans ?_
  unfold chanMin chanMinAt
  exact congrArg (fun f => (Finset.univ : Finset (Fin 32)).fold min top f)
    (funext fun k => xblk_apply m c t z0 z1 k r w)

/-- An index of the result is in a point's output block iff each coordinate is in the block's range on its axis. -/
theorem mem_blk (t : Fin cfg0.N) (i : S4x1x512x512.Idx) :
    i ∈ ((cfg0.win 1).blk t).view.set ↔ ∀ a : Fin 4, win0_1.index t a * S1x1x128x512.size a ≤ (i a).val
      ∧ (i a).val < win0_1.index t a * S1x1x128x512.size a + S1x1x128x512.size a := by
  show i ∈ ((View.whole main_v0).slice (win0_1.rect t)).set ↔ _
  rw [View.set_slice_whole, Rect.mem_set_unit]
  exact Iff.rfl

/-- The 16 output blocks cover the result: index (b, 0, h, w) is in the block of the point with batch b and row
    tile h / 128. -/
theorem covered (i : S4x1x512x512.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 512 := (i 2).isLt
  have hi3 : (i 3).val < 512 := (i 3).isLt
  obtain ⟨t, ht⟩ := idx_onto ⟨(i 0).val, hi0⟩ ⟨(i 2).val / 128, by omega⟩
  have q0 : win0_1.index t (0 : Fin 4) = (i 0).val := congrFun ht 0
  have q1 : win0_1.index t (1 : Fin 4) = 0 := congrFun ht 1
  have q2 : win0_1.index t (2 : Fin 4) = (i 2).val / 128 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 128 ≤ (i 2).val ∧ (i 2).val < win0_1.index t (2 : Fin 4) * 128 + 128; omega
  | ⟨3, _⟩ => show win0_1.index t (3 : Fin 4) * 512 ≤ (i 3).val ∧ (i 3).val < win0_1.index t (3 : Fin 4) * 512 + 512; omega

/-- The result array after the run is the channel minimum of the input array as launched. -/
theorem final (c : Dev nD) :
    (dats m 0 c).arrAt 1 cfg0.N = chanMin (m ((c : Thread nD τ).loc main_arg0)) :=
  (dats m 0 c).arrAt_eq_of_cover 1 (chanMin (xarr m c)) (fun t _ => flushed_eq m c t) covered

/-- Every weakly fair execution of the kernel program ends with the result array at the channel minimum of the
    argument, the argument unchanged: the frame run leaves each staged array at what its window's blocks make of it —
    the output window's at the array the points wrote back, the input window's (never written back) as it was. -/
theorem run : θ_run defs (onTc (τ := τ) (main (F := Ideal))) ⟨m, fun _ => 0, ρ⟩ fun r => ∀ c : Dev nD,
      r.2.mem ((c : Thread nD τ).loc main_v0) = chanMin (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.BlockValue

end
-- ==== Proof.lean ====
/-
  A channel minimum at the last time step: the kernel against its jnp reference, over the extended reals.

  The input x has shape [4, 8, 32, 512, 512] (batch, time, channel, row, column). Both programs produce the array of
  shape [4, 1, 512, 512] whose entry (b, 0, h, w) is the minimum over the 32 channels c of x[b, 7, c, h, w], taken
  from +∞ (`ChannelMin.chanMin`).

  * The kernel runs a 4 × 4 grid over (batch, row tile of 128 rows). A point's input block is the box of x at its
    batch, time step 7, all channels, its 128 rows, all columns; the body reduces that block over the channel axis
    from +∞ and stores the result as the output block at its batch and row tile. The 16 output blocks tile the
    result, so the result is the channel minimum (`KernelMin`).
  * The reference slices time step 7, drops the time axis, reduces over the channel axis from +∞ and puts a unit
    axis back: the same array (`RefMin`).

  The two reductions fold their 32 values in different orders; both are read as a `Finset.fold` of `min`, which fixes
  no order, because `min` on the extended reals commutes and associates (`MinOverAxis`). No other law is needed, and
  the finiteness of the input is not used.

  The three frames are the programs' runs with the results dropped; the idealization rewrote nothing, so the kernel's
  idealization is its own text and that conjunct is trivial.
-/
import proofs.«142336_j32667521253559_1_alg».proof.Defs
import proofs.«142336_j32667521253559_1_alg».proof.Proof.Gen.Kernel
import proofs.«142336_j32667521253559_1_alg».proof.Proof.Gen.Kernel.Skeleton
import proofs.«142336_j32667521253559_1_alg».proof.Proof.Gen.Kernel.Launch
import proofs.«142336_j32667521253559_1_alg».proof.Proof.Gen.Kernel.Points
import proofs.«142336_j32667521253559_1_alg».proof.Proof.Gen.Kernel.Frame
import proofs.«142336_j32667521253559_1_alg».proof.Proof.Gen.KernelIdeal
import proofs.«142336_j32667521253559_1_alg».proof.Proof.Gen.KernelIdeal.Skeleton
import proofs.«142336_j32667521253559_1_alg».proof.Proof.Gen.KernelIdeal.Launch
import proofs.«142336_j32667521253559_1_alg».proof.Proof.Gen.KernelIdeal.Points
import proofs.«142336_j32667521253559_1_alg».proof.Proof.Gen.KernelIdeal.Frame
import proofs.«142336_j32667521253559_1_alg».proof.Proof.Gen.ReferenceIdeal
import proofs.«142336_j32667521253559_1_alg».proof.Proof.Gen.Pre_finite_inputs
import proofs.«142336_j32667521253559_1_alg».proof.Proof.Gen.ReferenceIdeal.Run
import proofs.«142336_j32667521253559_1_alg».proof.Proof.Gen.ReferenceIdeal.Read
import proofs.«142336_j32667521253559_1_alg».proof.Proof.ChannelMin
import proofs.«142336_j32667521253559_1_alg».proof.Proof.MinOverAxis
import proofs.«142336_j32667521253559_1_alg».proof.Proof.RefMin
import proofs.«142336_j32667521253559_1_alg».proof.Proof.KernelMin
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- The idealized kernel runs and leaves its argument as it was. -/
theorem frame_kernelIdeal : Cert.frame_KernelIdeal := fun m ρ _ => Cert.KernelIdeal.Gen.frame m ρ

/-- The idealized reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x, both programs end with the channel minimum of x at the last time step. -/
theorem algebraic : Cert.algebraic_KernelIdeal_ReferenceIdeal := by
  intro m ρ m' ρ' _ hagree
  refine ⟨fun c => ChannelMin.chanMin (m ((c.tc : Thread Cert.KernelIdeal.nD Cert.KernelIdeal.τ).loc Cert.KernelIdeal.main_arg0)),
    Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
